-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x500000 : Shape := ⟨2, ![2, 500000]⟩
abbrev S256x512 : Shape := ⟨2, ![256, 512]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x256 .f32) (main_arg1 : IVec S2x500000 32) (main_arg2 : FVec F S256x512 .f32) (main_arg3 : FVec F S256 .f32) (main_arg4 : FVec F S128x256 .f32) (main_arg5 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_v13 main_v16
-- ==== Kernel.lean ====
abbrev S100000x256 : Shape := ⟨2, ![100000, 256]⟩
abbrev S2x500000 : Shape := ⟨2, ![2, 500000]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S256x256 : Shape := ⟨2, ![256, 256]⟩
abbrev S256x128 : Shape := ⟨2, ![256, 128]⟩
abbrev S1x256 : Shape := ⟨2, ![1, 256]⟩
abbrev S1x128 : Shape := ⟨2, ![1, 128]⟩
abbrev S500000x128 : Shape := ⟨2, ![500000, 128]⟩
abbrev S4000x256 : Shape := ⟨2, ![4000, 256]⟩
abbrev S4000x128 : Shape := ⟨2, ![4000, 128]⟩

abbrev nBuf : Space → Nat
  | .hbm => 39
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x500000, .i32⟩
  | .hbm, ⟨2, _⟩ => ⟨S256x512, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x256, .f32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x256, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S256x256, .bf16⟩
  | .hbm, ⟨32, _⟩ => ⟨S256x256, .f32⟩
  | .hbm, ⟨33, _⟩ => ⟨S256x256, .bf16⟩
  | .hbm, ⟨34, _⟩ => ⟨S256x128, .f32⟩
  | .hbm, ⟨35, _⟩ => ⟨S256x128, .bf16⟩
  | .hbm, ⟨36, _⟩ => ⟨S1x256, .f32⟩
  | .hbm, ⟨37, _⟩ => ⟨S1x128, .f32⟩
  | .hbm, ⟨38, _⟩ => ⟨S500000x128, .f32⟩
  | .local _ .vmem, ⟨0, _⟩ => ⟨S4000x256, .f32⟩
  | .local _ .vmem, ⟨1, _⟩ => ⟨S4000x256, .f32⟩
  | .local _ .vmem, ⟨2, _⟩ => ⟨S4000x256, .f32⟩
  | .local _ .vmem, ⟨3, _⟩ => ⟨S4000x256, .f32⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S256x128, .bf16⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S256x512_S256x256_0_0 : S256x512.Slices ![0, 0] S256x256
  slices_S256x512_S256x256_0_256 : S256x512.Slices ![0, 256] S256x256
  transposes_S256x256_S256x256_1_0 : S256x256.Transposes [1, 0] S256x256
  bitsLt_bf16_f32 : FTy.bits .bf16 < FTy.bits .f32
  transposes_S128x256_S256x128_1_0 : S128x256.Transposes [1, 0] S256x128
  shapeCasts_S256_S1x256 : S256.ShapeCasts S1x256
  shapeCasts_S128_S1x128 : S128.ShapeCasts S1x128
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  gather_S100000x256_S500000x1_S500000x256_1_0_n_n_0_1_1256_wf : GatherDims.WF S100000x256 S500000x1 S500000x256 [1] [0] [] [0] [] 1 ![1, 256]
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S500000x256.size a
  hwx0_0 : ∀ i : grid0.Coords, EltTy.bits .f32 = 32 ∨ (Rect.block (s := S500000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S500000x256.size a
  hwx0_1 : ∀ i : grid0.Coords, EltTy.bits .f32 = 32 ∨ (Rect.block (s := S500000x256) S4000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S500000x128.size a
  hwx0_7 : ∀ i : grid0.Coords, EltTy.bits .f32 = 32 ∨ (Rect.block (s := S500000x128) S4000x128.size (cc0_transform_7 i) (hinb0_7 i)).WholeWords (EltTy.packing .f32)

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v10) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x500000 : Shape := ⟨2, ![2, 500000]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S500000x512 : Shape := ⟨2, ![500000, 512]⟩
abbrev S512x256 : Shape := ⟨2, ![512, 256]⟩
abbrev S1x256 : Shape := ⟨2, ![1, 256]⟩
abbrev S256x128 : Shape := ⟨2, ![256, 128]⟩
abbrev S500000x128 : Shape := ⟨2, ![500000, 128]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x500000, .i32⟩
  | .hbm, ⟨2, _⟩ => ⟨S256x512, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S1x500000, .i32⟩
  | .hbm, ⟨7, _⟩ => ⟨S500000, .i32⟩
  | .hbm, ⟨8, _⟩ => ⟨S_, .i32⟩
  | .hbm, ⟨9, _⟩ => ⟨S500000, .i32⟩
  | .hbm, ⟨10, _⟩ => ⟨S500000, .i1⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000x1, .i32⟩
  | .hbm, ⟨16, _⟩ => ⟨S500000x256, .f32⟩
  | .hbm, ⟨17, _⟩ => ⟨S1x500000, .i32⟩
  | .hbm, ⟨18, _⟩ => ⟨S500000, .i32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x256, .f32⟩
  | .hbm, ⟨28, _⟩ => ⟨S500000x512, .f32⟩
  | .hbm, ⟨29, _⟩ => ⟨S512x256, .f32⟩
  | .hbm, ⟨30, _⟩ => ⟨S500000x256, .f32⟩
  | .hbm, ⟨31, _⟩ => ⟨S1x256, .f32⟩
  | .hbm, ⟨32, _⟩ => ⟨S500000x256, .f32⟩
  | .hbm, ⟨33, _⟩ => ⟨S500000x256, .f32⟩
  | .hbm, ⟨34, _⟩ => ⟨S_, .f32⟩
  | .hbm, ⟨35, _⟩ => ⟨S500000x256, .f32⟩
  | .hbm, ⟨36, _⟩ => ⟨S500000x256, .f32⟩
  | .hbm, ⟨37, _⟩ => ⟨S256x128, .f32⟩
  | .hbm, ⟨38, _⟩ => ⟨S500000x128, .f32⟩
  | .hbm, ⟨39, _⟩ => ⟨S1x128, .f32⟩
  | .hbm, ⟨40, _⟩ => ⟨S500000x128, .f32⟩
  | .hbm, ⟨41, _⟩ => ⟨S500000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x256_S500000x256_S500000x512_d1 : Shape.Concatenates [S500000x256, S500000x256] S500000x512 1
  transposes_S256x512_S512x256_1_0 : S256x512.Transposes [1, 0] S512x256
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  transposes_S128x256_S256x128_1_0 : S128x256.Transposes [1, 0] S256x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  gather_S100000x256_S500000x1_S500000x256_1_0_n_n_0_1_1256_wf : GatherDims.WF S100000x256 S500000x1 S500000x256 [1] [0] [] [0] [] 1 ![1, 256]
  dot_S500000x512_S512x256_S500000x256_1_0_0_1_n_n_wf : DotDims.WF S500000x512 S512x256 S500000x256 [1] [0] [0] [1] [] []
  dot_S500000x256_S256x128_S500000x128_1_0_0_1_n_n_wf : DotDims.WF S500000x256 S256x128 S500000x128 [1] [0] [0] [1] [] []

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S500000x512_S512x256_S500000x256_1_0_0_1_n_n : DotDims S500000x512 S512x256 S500000x256 where
  lhsContracting := [1]
  rhsContracting := [0]
  lhsNonContracting := [0]
  rhsNonContracting := [1]
  lhsBatch := []
  rhsBatch := []
  wf := dot_S500000x512_S512x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf

class Facts : Prop extends Facts₀ where

variable [Facts]
-- ==== Proof.HostSide.lean ====
/-
  The arrays the kernel's region finds, as functions of the program's arguments.

  Before the region the host gathers the rows of `z` at the edges' two endpoints (after sending a negative row id `r`
  to `r + 100000`), cuts `W1` into its left and right [256, 256] halves and transposes each, transposes `W2`, and
  views the two bias vectors as one-row matrices. So entry `(l, k)` of the first transposed half is `W1 (k, l)`, of the
  second `W1 (k, 256 + l)`; entry `(k, q)` of the transposed `W2` is `W2 (q, k)`; entry `(0, k)` of a bias row is
  the bias vector's entry `k`. A change of float format is the identity on the extended reals.
-/
import proofs.«145748_j81484119539941_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The node table `z` as launched. -/
abbrev zArr (c : Dev nD) : FVec Ideal S100000x256 .f32 := m ((c : Thread nD τ).loc main_arg0)
/-- The edge list as launched: row 0 the source ids, row 1 the destination ids. -/
abbrev eArr (c : Dev nD) : IVec S2x500000 32 := m ((c : Thread nD τ).loc main_arg1)
/-- `W1` as launched. -/
abbrev w1Arr (c : Dev nD) : FVec Ideal S256x512 .f32 := m ((c : Thread nD τ).loc main_arg2)
/-- `b1` as launched. -/
abbrev b1Arr (c : Dev nD) : FVec Ideal S256 .f32 := m ((c : Thread nD τ).loc main_arg3)
/-- `W2` as launched. -/
abbrev w2Arr (c : Dev nD) : FVec Ideal S128x256 .f32 := m ((c : Thread nD τ).loc main_arg4)
/-- `b2` as launched. -/
abbrev b2Arr (c : Dev nD) : FVec Ideal S128 .f32 := m ((c : Thread nD τ).loc main_arg5)

/-- A vector of row ids with the negative ones moved up by the table's 100000 rows, as a one-column index array. -/
def rowIds (ids : IVec S500000 32) : IVec S500000x1 32 :=
  broadcastInDim S500000x1 ![0] bcast_S500000_S500000x1_0
    (select (cmpi .slt ids (broadcastInDim S500000 ![] bcast_S_S500000 (constantI S_ 32 0#32)))
      (addi ids (broadcastInDim S500000 ![] bcast_S_S500000 (constantI S_ 32 100000#32))) ids)

/-- The rows of `z` gathered at the edges' sources. -/
def srcArr (c : Dev nD) : FVec Ideal S500000x256 .f32 :=
  Host.gather gather_S100000x256_S500000x1_S500000x256_1_0_n_n_0_1_1256 (zArr m c)
    (rowIds (shapeCast _ (extractStridedSlice S1x500000 ![0, 0] (eArr m c) slices_S2x500000_S1x500000_0_0) shapeCasts_S1x500000_S500000))

/-- The rows of `z` gathered at the edges' destinations. -/
def dstArr (c : Dev nD) : FVec Ideal S500000x256 .f32 :=
  Host.gather gather_S100000x256_S500000x1_S500000x256_1_0_n_n_0_1_1256 (zArr m c)
    (rowIds (shapeCast _ (extractStridedSlice S1x500000 ![1, 0] (eArr m c) slices_S2x500000_S1x500000_1_0) shapeCasts_S1x500000_S500000))

/-- The first window's array is the gathered source rows. -/
theorem src_eq (c : Dev nD) : (V m c main_v10 : FVec Ideal S500000x256 .f32) = srcArr m c := by
  dsimp only [V, hostOps0]; after_results; rfl

/-- The second window's array is the gathered destination rows. -/
theorem dst_eq (c : Dev nD) : (V m c main_v17 : FVec Ideal S500000x256 .f32) = dstArr m c := by
  dsimp only [V, hostOps0]; after_results; rfl

/-- The transposed left half of `W1`. -/
theorem w1a_apply (c : Dev nD) (l k : Fin 256) :
    (V m c main_v21 : FVec Ideal S256x256 .bf16) (ix2 l k) = w1Arr m c (ix2 k (Fin.castAdd 256 l)) := by
  have e : (V m c main_v21 : FVec Ideal S256x256 .bf16)
      = truncf .bf16 (transpose S256x256 [1, 0] (extractStridedSlice S256x256 ![0, 0] (w1Arr m c) slices_S256x512_S256x256_0_0)
          transposes_S256x256_S256x256_1_0) bitsLt_bf16_f32 := by
    dsimp only [V, hostOps0]; after_results
  rw [e, truncf_apply, transpose_apply [1, 0] _ transposes_S256x256_S256x256_1_0 (ix2 l k) (ix2 k l)
    (fun b => match b with | ⟨0, _⟩ => rfl | ⟨1, _⟩ => rfl)]
  exact extractStridedSlice_apply ![0, 0] _ slices_S256x512_S256x256_0_0 (ix2 k l) (ix2 k (Fin.castAdd 256 l))
    (fun a => match a with
      | ⟨0, _⟩ => by show k.val = 0 + k.val; omega
      | ⟨1, _⟩ => by show l.val = 0 + l.val; omega)

/-- The transposed right half of `W1`. -/
theorem w1b_apply (c : Dev nD) (l k : Fin 256) :
    (V m c main_v23 : FVec Ideal S256x256 .bf16) (ix2 l k) = w1Arr m c (ix2 k (Fin.natAdd 256 l)) := by
  have e : (V m c main_v23 : FVec Ideal S256x256 .bf16)
      = truncf .bf16 (transpose S256x256 [1, 0] (extractStridedSlice S256x256 ![0, 256] (w1Arr m c) slices_S256x512_S256x256_0_256)
          transposes_S256x256_S256x256_1_0) bitsLt_bf16_f32 := by
    dsimp only [V, hostOps0]; after_results
  rw [e, truncf_apply, transpose_apply [1, 0] _ transposes_S256x256_S256x256_1_0 (ix2 l k) (ix2 k l)
    (fun b => match b with | ⟨0, _⟩ => rfl | ⟨1, _⟩ => rfl)]
  exact extractStridedSlice_apply ![0, 256] _ slices_S256x512_S256x256_0_256 (ix2 k l) (ix2 k (Fin.natAdd 256 l))
    (fun a => match a with
      | ⟨0, _⟩ => by show k.val = 0 + k.val; omega
      | ⟨1, _⟩ => by show 256 + l.val = 256 + l.val; rfl)

/-- The transposed `W2`. -/
theorem w2t_apply (c : Dev nD) (k : Fin 256) (q : Fin 128) :
    (V m c main_v25 : FVec Ideal S256x128 .bf16) (ix2 k q) = w2Arr m c (ix2 q k) := by
  have e : (V m c main_v25 : FVec Ideal S256x128 .bf16)
      = truncf .bf16 (transpose S256x128 [1, 0] (w2Arr m c) transposes_S128x256_S256x128_1_0) bitsLt_bf16_f32 := by
    dsimp only [V, hostOps0]; after_results
  rw [e, truncf_apply]
  exact transpose_apply [1, 0] _ transposes_S128x256_S256x128_1_0 (ix2 k q) (ix2 q k)
    (fun b => match b with | ⟨0, _⟩ => rfl | ⟨1, _⟩ => rfl)

/-- `b1` as a one-row matrix. -/
theorem b1row_apply (c : Dev nD) (k : Fin 256) :
    (V m c main_v26 : FVec Ideal S1x256 .f32) (ix2 0 k) = b1Arr m c (ix1 k) := by
  have e : (V m c main_v26 : FVec Ideal S1x256 .f32) = shapeCast _ (b1Arr m c) shapeCasts_S256_S1x256 := by
    dsimp only [V, hostOps0]; after_results; rfl
  rw [e]
  exact shapeCast_apply _ shapeCasts_S256_S1x256 (ix2 0 k) (ix1 k)
    (by rewrite [Shape.rowMajor_val_one, Shape.rowMajor_val_two]; show k.val = 0 * 256 + k.val; omega)

/-- `b2` as a one-row matrix. -/
theorem b2row_apply (c : Dev nD) (q : Fin 128) :
    (V m c main_v27 : FVec Ideal S1x128 .f32) (ix2 0 q) = b2Arr m c (ix1 q) := by
  have e : (V m c main_v27 : FVec Ideal S1x128 .f32) = shapeCast _ (b2Arr m c) shapeCasts_S128_S1x128 := by
    dsimp only [V, hostOps0]; after_results; rfl
  rw [e]
  exact shapeCast_apply _ shapeCasts_S128_S1x128 (ix2 0 q) (ix1 q)
    (by rewrite [Shape.rowMajor_val_one, Shape.rowMajor_val_two]; show q.val = 0 * 128 + q.val; omega)

end Cert.KernelIdeal.HostSide

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.LibPlainDot.lean ====
/-
  A plain matrix contraction read by coordinates.

  For dimension numbers `d` between a left operand of shape [m, n], a right operand of shape [n, q] and a result of
  shape [m, q] that contract the left operand's axis 1 against the right operand's axis 0, with no batch axis — the
  dimension numbers of `A · B` —, the contraction's positions are the numbers below `n`; at position `i` and result
  index `j` the left operand is read at `(j 0, i)` and the right operand at `(i, j 1)`. So any sum over the
  contraction's positions of a term in the two operand indices is the sum over `i : Fin n` of the term at those two
  coordinate pairs (`sum_plain`); at the extended reals a `tpu.matmul` into the zero accumulator (`matmul_zero_plain`)
  and the host's `dot_general` (`dotGeneral_plain`) are both the textbook `∑ i, l (a, i) * r (i, b)`.
-/
import proofs.«145748_j81484119539941_1_alg».proof.Proof.LibContraction

noncomputable section

open scoped BigOperators

namespace Cert.Lib.PlainDot

open Idealize.ShloMosaic Idealize.ShloMosaic.ValueIdx Cert.Lib.Contraction

variable {m n q : Nat} (d : DotDims ⟨2, ![m, n]⟩ ⟨2, ![n, q]⟩ ⟨2, ![m, q]⟩)

/-- A sum over the contraction's positions of a term in the two operand indices is the sum over the contracted
    extent of the term at `(j 0, i)` and `(i, j 1)`. -/
theorem sum_plain (hlc : d.lhsContracting = [1]) (hrc : d.rhsContracting = [0]) (hln : d.lhsNonContracting = [0])
    (hrn : d.rhsNonContracting = [1]) (hlb : d.lhsBatch = []) (hrb : d.rhsBatch = [])
    {M : Type*} [AddCommMonoid M] (f : (⟨2, ![m, n]⟩ : Shape).Idx → (⟨2, ![n, q]⟩ : Shape).Idx → M)
    (j : (⟨2, ![m, q]⟩ : Shape).Idx) :
    ∑ k : d.contr.Idx, f (d.lhsIdx j k) (d.rhsIdx j k) = ∑ i : Fin n, f (ix2 (j 0) i) (ix2 i (j 1)) := by
  rw [sum_contr d hlc n rfl (fun k => f (d.lhsIdx j k) (d.rhsIdx j k))]
  refine Finset.sum_congr rfl fun i _ => ?_
  have el : d.lhsIdx j ((contrFin d hlc n rfl).symm i) = ix2 (j 0) i := funext fun a => Fin.ext (by
    match a with
    | ⟨0, _⟩ => exact lhs_free d hlb hln j _ Nat.zero_lt_two
    | ⟨1, _⟩ => exact lhs_contracted d hlc n rfl j i)
  have er : d.rhsIdx j ((contrFin d hlc n rfl).symm i) = ix2 i (j 1) := funext fun a => Fin.ext (by
    match a with
    | ⟨0, _⟩ => exact rhs_contracted d hlc hrc n rfl j i
    | ⟨1, _⟩ => exact rhs_free d hlb hrb hln hrn j _ Nat.one_lt_two)
  exact congrArg₂ f el er

variable {φ₁ φ₂ : FTy}

/-- At the extended reals a `tpu.matmul` into the zero accumulator is the textbook product. -/
theorem matmul_zero_plain (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![m, n]⟩ φ₁) (r : FVec Ideal ⟨2, ![n, q]⟩ φ₂)
    (a : Fin m) (b : Fin q) :
    matmul d prec l r (constant ⟨2, ![m, q]⟩ .f32 0x00000000#32) (ix2 a b) = ∑ i : Fin n, l (ix2 a i) * r (ix2 i b) := by
  show FloatOps.matmul d prec l r (constant ⟨2, ![m, q]⟩ .f32 0x00000000#32) (ix2 a b) = _
  rw [Ideal.matmul_constant_zero_apply]
  exact sum_plain d hlc hrc hln hrn hlb hrb (fun x y => l x * r y) (ix2 a b)

/-- At the extended reals the host's `dot_general` is the textbook product. -/
theorem dotGeneral_plain (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![m, n]⟩ φ₁) (r : FVec Ideal ⟨2, ![n, q]⟩ φ₂)
    (a : Fin m) (b : Fin q) :
    Host.dotGeneral d prec l r (ix2 a b) = ∑ i : Fin n, l (ix2 a i) * r (ix2 i b) := by
  show FloatOps.dotGeneral d prec .single l r (ix2 a b) = _
  rw [Ideal.dotGeneral_apply]
  exact sum_plain d hlc hrc hln hrn hlb hrb (fun x y => l x * r y) (ix2 a b)

end Cert.Lib.PlainDot

end
-- ==== Proof.Body.lean ====
/-
  The kernel body's arithmetic at one entry of its output block.

  At a grid point the body holds a block of 4000 edges: their source rows `x0` and destination rows `x1`
  ([4000, 256] each), the two transposed halves of `W1` (`x2`, `x3`: [256, 256], entry `(l, k)` the weight of input
  `l` in unit `k`), the bias row `x4` ([1, 256]), the transposed `W2` (`x5`: [256, 128]) and its bias row `x6`
  ([1, 128]). Entry `(p, q)` of what it stores is
    `∑ k, max (∑ l, x0 (p, l) · x2 (l, k) + ∑ l, x1 (p, l) · x3 (l, k) + x4 (0, k)) 0 · x5 (k, q) + x6 (0, q)`:
  at the extended reals a change of float format is the identity, each of the three matrix products into a zero
  accumulator is the textbook sum, and the bias rows are broadcast down the 4000 rows.
-/
import proofs.«145748_j81484119539941_1_alg».proof.Proof.Gen.KernelIdeal.Skeleton
import proofs.«145748_j81484119539941_1_alg».proof.Proof.LibPlainDot
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Lib.PlainDot

/-- A row vector [1, 256] broadcast down 4000 rows: entry `(p, k)` is the row's entry `k`. -/
theorem row256_apply (b : FVec Ideal S1x256 .f32) (h : S1x256.Broadcasts S4000x256) (p : Fin 4000) (k : Fin 256) :
    broadcastTo S4000x256 b h (ix2 p k) = b (ix2 0 k) :=
  broadcastTo_apply b h (ix2 p k) (ix2 0 k) (fun a => match a with
    | ⟨0, _⟩ => by show (0 : Nat) = if (1 : Nat) = 1 then 0 else p.val; rw [if_pos rfl]
    | ⟨1, _⟩ => by show k.val = if (256 : Nat) = 1 then 0 else k.val; rw [if_neg (by decide)])

/-- A row vector [1, 128] broadcast down 4000 rows: entry `(p, q)` is the row's entry `q`. -/
theorem row128_apply (b : FVec Ideal S1x128 .f32) (h : S1x128.Broadcasts S4000x128) (p : Fin 4000) (q : Fin 128) :
    broadcastTo S4000x128 b h (ix2 p q) = b (ix2 0 q) :=
  broadcastTo_apply b h (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- A block of rows against a [256, 256] weight matrix, into the zero accumulator. -/
theorem rows_times_w1 (x : FVec Ideal S4000x256 .bf16) (w : FVec Ideal S256x256 .bf16) (p : Fin 4000) (k : Fin 256) :
    matmul dot_S4000x256_S256x256_S4000x256_1_0_0_1_n_n none x w (constant S4000x256 .f32 0x00000000#32) (ix2 p k)
      = ∑ l : Fin 256, x (ix2 p l) * w (ix2 l k) :=
  matmul_zero_plain dot_S4000x256_S256x256_S4000x256_1_0_0_1_n_n rfl rfl rfl rfl rfl rfl none x w p k

/-- A block of hidden rows against the [256, 128] weight matrix, into the zero accumulator. -/
theorem rows_times_w2 (x : FVec Ideal S4000x256 .bf16) (w : FVec Ideal S256x128 .bf16) (p : Fin 4000) (q : Fin 128) :
    matmul dot_S4000x256_S256x128_S4000x128_1_0_0_1_n_n none x w (constant S4000x128 .f32 0x00000000#32) (ix2 p q)
      = ∑ k : Fin 256, x (ix2 p k) * w (ix2 k q) :=
  matmul_zero_plain dot_S4000x256_S256x128_S4000x128_1_0_0_1_n_n rfl rfl rfl rfl rfl rfl none x w p q

/-- Entry `(p, q)` of the block the body stores. -/
theorem stored_apply (x0 x1 : Vec Ideal S4000x256 .f32) (x2 x3 : Vec Ideal S256x256 .bf16) (x4 : Vec Ideal S1x256 .f32)
    (x5 : Vec Ideal S256x128 .bf16) (x6 : Vec Ideal S1x128 .f32) (p : Fin 4000) (q : Fin 128) :
    k0_pay1 (F := Ideal) x0 x1 x2 x3 x4 x5 x6 (ix2 p q)
      = (∑ k : Fin 256, max ((∑ l : Fin 256, x0 (ix2 p l) * x2 (ix2 l k) + ∑ l : Fin 256, x1 (ix2 p l) * x3 (ix2 l k))
            + x4 (ix2 0 k)) (Ideal.ofBits .f32 0x00000000#32) * x5 (ix2 k q)) + x6 (ix2 0 q) := by
  unfold k0_pay1
  simp only [shapeCast_self]
  rw [addf_apply, row128_apply, rows_times_w2]
  refine congrArg (· + x6 (ix2 0 q)) (Finset.sum_congr rfl fun k _ => ?_)
  rw [truncf_apply, maximumf_apply, addf_apply, addf_apply, row256_apply, rows_times_w1, rows_times_w1, broadcast_apply]
  rfl

end Cert.KernelIdeal.Body

end
-- ==== Proof.Spec.lean ====
/-
  What both programs compute, as one function of the arrays.

  An edge `e` has a source row `s = src e` and a destination row `d = dst e` of 256 numbers each. The first layer has
  256 units over the 512 numbers `s ++ d`: unit `k` is `max (∑ l, s l · W1 k l + ∑ l, d l · W1 k (256 + l) + b1 k) 0`.
  The second layer has 128 units over those: unit `j` is `∑ k, hidden k · W2 j k + b2 j`. The zero of the `max` is kept
  as the float pattern both programs print; it is never evaluated.

  The one law between the two programs: a sum over 512 positions is the sum over the first 256 plus the sum over
  the last 256 (`sum_halves`). It is a law of any commutative monoid, so it holds on the extended reals whatever the
  summands are, infinite ones included.
-/
import Idealize.ShloMosaic.PureOps.Ideal
import Idealize.ShloMosaic.Lib.ValueIdx

noncomputable section

open scoped BigOperators

namespace Cert.EdgeMlp

open Idealize.ShloMosaic Idealize.ShloMosaic.ValueIdx

/-- Hidden unit `k` of one edge: the rectified affine form of the edge's source row `s` against the first half of row
    `k` of `W1` and of its destination row `d` against the second half. -/
def hidden (s d : Fin 256 → EReal) (W1 : Fin 256 → Fin 512 → EReal) (b1 : Fin 256 → EReal) (k : Fin 256) : EReal :=
  max ((∑ l : Fin 256, s l * W1 k (Fin.castAdd 256 l) + ∑ l : Fin 256, d l * W1 k (Fin.natAdd 256 l)) + b1 k)
    (Ideal.ofBits .f32 0x00000000#32)

/-- Output unit `j` of one edge: the affine form of the hidden units against row `j` of `W2`. -/
def edgeOut (s d : Fin 256 → EReal) (W1 : Fin 256 → Fin 512 → EReal) (b1 : Fin 256 → EReal)
    (W2 : Fin 128 → Fin 256 → EReal) (b2 : Fin 128 → EReal) (j : Fin 128) : EReal :=
  (∑ k : Fin 256, hidden s d W1 b1 k * W2 j k) + b2 j

/-- The result array: entry `(e, j)` is output unit `j` of edge `e`, whose rows are row `e` of `src` and of `dst`. -/
def G (src dst : (⟨2, ![500000, 256]⟩ : Shape).Idx → EReal) (W1 : (⟨2, ![256, 512]⟩ : Shape).Idx → EReal)
    (b1 : (⟨1, ![256]⟩ : Shape).Idx → EReal) (W2 : (⟨2, ![128, 256]⟩ : Shape).Idx → EReal)
    (b2 : (⟨1, ![128]⟩ : Shape).Idx → EReal) : (⟨2, ![500000, 128]⟩ : Shape).Idx → EReal := fun i =>
  edgeOut (fun l => src (ix2 (i 0) l)) (fun l => dst (ix2 (i 0) l)) (fun k l => W1 (ix2 k l)) (fun k => b1 (ix1 k))
    (fun j k => W2 (ix2 j k)) (fun j => b2 (ix1 j)) (i 1)

/-- `G` at explicit coordinates. -/
theorem G_apply (src dst : (⟨2, ![500000, 256]⟩ : Shape).Idx → EReal) (W1 : (⟨2, ![256, 512]⟩ : Shape).Idx → EReal)
    (b1 : (⟨1, ![256]⟩ : Shape).Idx → EReal) (W2 : (⟨2, ![128, 256]⟩ : Shape).Idx → EReal)
    (b2 : (⟨1, ![128]⟩ : Shape).Idx → EReal) (e : Fin 500000) (j : Fin 128) :
    G src dst W1 b1 W2 b2 (ix2 e j)
      = edgeOut (fun l => src (ix2 e l)) (fun l => dst (ix2 e l)) (fun k l => W1 (ix2 k l)) (fun k => b1 (ix1 k))
          (fun j k => W2 (ix2 j k)) (fun j => b2 (ix1 j)) j := rfl

/-- A sum over 512 positions is the sum over the first 256 plus the sum over the last 256. -/
theorem sum_halves (f : Fin 512 → EReal) :
    ∑ k : Fin 512, f k = ∑ l : Fin 256, f (Fin.castAdd 256 l) + ∑ l : Fin 256, f (Fin.natAdd 256 l) :=
  Fin.sum_univ_add (a := 256) (b := 256) f

end Cert.EdgeMlp

end
-- ==== Proof.KernelValue.lean ====
/-
  The kernel's result array is the edge network `G` of the arrays its region finds.

  Grid point `t` works on edges `4000 t … 4000 t + 3999`: its two row blocks are those rows of the gathered source and
  destination arrays, the weight and bias windows are whole arrays at every point, and what it writes back is those
  rows of the result. With the body's arithmetic at an entry (`Cert.KernelIdeal.Body.stored_apply`) and the host side's
  reading of the weight arrays (`Cert.KernelIdeal.HostSide`), entry `(p, q)` of point `t`'s block is `G` at
  `(4000 t + p, q)`; the 125 blocks of 4000 rows tile the 500000 rows (row `r` lies in block `r / 4000`), so the array
  after the run is `G`.
-/
import proofs.«145748_j81484119539941_1_alg».proof.Proof.Gen.KernelIdeal.Value
import proofs.«145748_j81484119539941_1_alg».proof.Proof.HostSide
import proofs.«145748_j81484119539941_1_alg».proof.Proof.Body
import proofs.«145748_j81484119539941_1_alg».proof.Proof.Spec

noncomputable section

open scoped BigOperators

namespace Cert.KernelIdeal.KernelValue

open Cert.KernelIdeal Cert.KernelIdeal.Gen Cert.KernelIdeal.Value Cert.KernelIdeal.HostSide Cert.KernelIdeal.Body
open Idealize.ShloMosaic Idealize.ShloMosaic.TcCoe Idealize.ShloMosaic.ValueIdx Idealize.SL.Sem Cert.EdgeMlp
open Idealize.ShloMosaic.Pipeline (Dat)

variable (m : (ℓ : Loc nD τ sig) → Buf (Elt Ideal) ℓ) (ρ : Dev nD → PrngReg)

/-- The edge network of the gathered rows and the weights as launched. -/
def result (c : Dev nD) : FVec Ideal S500000x128 .f32 :=
  G (srcArr m c) (dstArr m c) (w1Arr m c) (b1Arr m c) (w2Arr m c) (b2Arr m c)

theorem origin : (![0, 0] : Fin 2 → Nat) = fun _ => 0 := funext fun a => by fin_cases a <;> rfl

/-- The printed index maps over the grid: the row windows and the output window sit at block `(t, 0)`, every other
    window at block `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 125 := lt_of_lt_of_eq t.isLt N_0

/-- Row `p` of point `t`'s source block is row `4000 t + p` of the gathered source rows. -/
theorem src_block (c : Dev nD) (t : Fin cfg0.N) (p : Fin 4000) (e : Fin 500000) (he : e.val = t.val * 4000 + p.val)
    (l : Fin 256) : (iblk m c 0 t : Vec Ideal S4000x256 .f32) (ix2 p l) = srcArr m c (ix2 e l) := by
  rw [← src_eq]
  unfold iblk
  rw [View.read_apply]
  show (V m c main_v10 : FVec Ideal S500000x256 .f32) (((cfg0.win 0).blk t).view.emb (ix2 p l)) = _
  refine congrArg (V m c main_v10 : FVec Ideal S500000x256 .f32) (funext fun a => Fin.ext ?_)
  obtain ⟨h0, h1, -⟩ := block_indices t
  match a with
  | ⟨0, _⟩ => show win0_0.index t (0 : Fin 2) * 4000 + 1 * p.val = e.val; rw [h0, he]; omega
  | ⟨1, _⟩ => show win0_0.index t (1 : Fin 2) * 256 + 1 * l.val = l.val; rw [h1]; omega

/-- Row `p` of point `t`'s destination block is row `4000 t + p` of the gathered destination rows. -/
theorem dst_block (c : Dev nD) (t : Fin cfg0.N) (p : Fin 4000) (e : Fin 500000) (he : e.val = t.val * 4000 + p.val)
    (l : Fin 256) : (iblk m c 1 t : Vec Ideal S4000x256 .f32) (ix2 p l) = dstArr m c (ix2 e l) := by
  rw [← dst_eq]
  unfold iblk
  rw [View.read_apply]
  show (V m c main_v17 : FVec Ideal S500000x256 .f32) (((cfg0.win 1).blk t).view.emb (ix2 p l)) = _
  refine congrArg (V m c main_v17 : FVec Ideal S500000x256 .f32) (funext fun a => Fin.ext ?_)
  obtain ⟨-, -, h0, h1, -⟩ := block_indices t
  match a with
  | ⟨0, _⟩ => show win0_1.index t (0 : Fin 2) * 4000 + 1 * p.val = e.val; rw [h0, he]; omega
  | ⟨1, _⟩ => show win0_1.index t (1 : Fin 2) * 256 + 1 * l.val = l.val; rw [h1]; omega

/-- The third window's block is the transposed left half of `W1`, at every point. -/
theorem w1a_block (c : Dev nD) (t : Fin cfg0.N) (l k : Fin 256) :
    (iblk m c 2 t : Vec Ideal S256x256 .bf16) (ix2 l k) = w1Arr m c (ix2 k (Fin.castAdd 256 l)) := by
  rw [← w1a_apply]
  unfold iblk
  rw [View.read_apply]
  show (V m c main_v21 : FVec Ideal S256x256 .bf16) (((cfg0.win 2).blk t).view.emb (ix2 l k)) = _
  refine congrArg (V m c main_v21 : FVec Ideal S256x256 .bf16) (funext fun a => Fin.ext ?_)
  obtain ⟨-, -, -, -, h0, h1, -⟩ := block_indices t
  match a with
  | ⟨0, _⟩ => show win0_2.index t (0 : Fin 2) * 256 + 1 * l.val = l.val; rw [h0]; omega
  | ⟨1, _⟩ => show win0_2.index t (1 : Fin 2) * 256 + 1 * k.val = k.val; rw [h1]; omega

/-- The fourth window's block is the transposed right half of `W1`, at every point. -/
theorem w1b_block (c : Dev nD) (t : Fin cfg0.N) (l k : Fin 256) :
    (iblk m c 3 t : Vec Ideal S256x256 .bf16) (ix2 l k) = w1Arr m c (ix2 k (Fin.natAdd 256 l)) := by
  rw [← w1b_apply]
  unfold iblk
  rw [View.read_apply]
  show (V m c main_v23 : FVec Ideal S256x256 .bf16) (((cfg0.win 3).blk t).view.emb (ix2 l k)) = _
  refine congrArg (V m c main_v23 : FVec Ideal S256x256 .bf16) (funext fun a => Fin.ext ?_)
  obtain ⟨-, -, -, -, -, -, h0, h1, -⟩ := block_indices t
  match a with
  | ⟨0, _⟩ => show win0_3.index t (0 : Fin 2) * 256 + 1 * l.val = l.val; rw [h0]; omega
  | ⟨1, _⟩ => show win0_3.index t (1 : Fin 2) * 256 + 1 * k.val = k.val; rw [h1]; omega

/-- The fifth window's block is `b1` as a row, at every point. -/
theorem b1_block (c : Dev nD) (t : Fin cfg0.N) (k : Fin 256) :
    (iblk m c 4 t : Vec Ideal S1x256 .f32) (ix2 0 k) = b1Arr m c (ix1 k) := by
  rw [← b1row_apply]
  unfold iblk
  rw [View.read_apply]
  show (V m c main_v26 : FVec Ideal S1x256 .f32) (((cfg0.win 4).blk t).view.emb (ix2 0 k)) = _
  refine congrArg (V m c main_v26 : FVec Ideal S1x256 .f32) (funext fun a => Fin.ext ?_)
  obtain ⟨-, -, -, -, -, -, -, -, h0, h1, -⟩ := block_indices t
  match a with
  | ⟨0, _⟩ => show win0_4.index t (0 : Fin 2) * 1 + 1 * 0 = 0; rw [h0]
  | ⟨1, _⟩ => show win0_4.index t (1 : Fin 2) * 256 + 1 * k.val = k.val; rw [h1]; omega

/-- The sixth window's block is the transposed `W2`, at every point. -/
theorem w2_block (c : Dev nD) (t : Fin cfg0.N) (k : Fin 256) (q : Fin 128) :
    (iblk m c 5 t : Vec Ideal S256x128 .bf16) (ix2 k q) = w2Arr m c (ix2 q k) := by
  rw [← w2t_apply]
  unfold iblk
  rw [View.read_apply]
  show (V m c main_v25 : FVec Ideal S256x128 .bf16) (((cfg0.win 5).blk t).view.emb (ix2 k q)) = _
  refine congrArg (V m c main_v25 : FVec Ideal S256x128 .bf16) (funext fun a => Fin.ext ?_)
  obtain ⟨-, -, -, -, -, -, -, -, -, -, h0, h1, -⟩ := block_indices t
  match a with
  | ⟨0, _⟩ => show win0_5.index t (0 : Fin 2) * 256 + 1 * k.val = k.val; rw [h0]; omega
  | ⟨1, _⟩ => show win0_5.index t (1 : Fin 2) * 128 + 1 * q.val = q.val; rw [h1]; omega

/-- The seventh window's block is `b2` as a row, at every point. -/
theorem b2_block (c : Dev nD) (t : Fin cfg0.N) (q : Fin 128) :
    (iblk m c 6 t : Vec Ideal S1x128 .f32) (ix2 0 q) = b2Arr m c (ix1 q) := by
  rw [← b2row_apply]
  unfold iblk
  rw [View.read_apply]
  show (V m c main_v27 : FVec Ideal S1x128 .f32) (((cfg0.win 6).blk t).view.emb (ix2 0 q)) = _
  refine congrArg (V m c main_v27 : FVec Ideal S1x128 .f32) (funext fun a => Fin.ext ?_)
  obtain ⟨-, -, -, -, -, -, -, -, -, -, -, -, h0, h1, -⟩ := block_indices t
  match a with
  | ⟨0, _⟩ => show win0_6.index t (0 : Fin 2) * 1 + 1 * 0 = 0; rw [h0]
  | ⟨1, _⟩ => show win0_6.index t (1 : Fin 2) * 128 + 1 * q.val = q.val; rw [h1]; omega

/-- What point `t` writes back is its 4000 rows of the edge network. -/
theorem flushed_eq (c : Dev nD) (t : Fin cfg0.N) :
    (dats m 0 c).flushed 7 t = ((cfg0.win 7).blk t).view.read (Elt Ideal) (result m c) := by
  rw [flushed7]
  unfold out0_7
  rw [View.canon_unit_zero origin]
  simp only [View.ld_unit_zero (S := S4000x256) origin, View.ld_unit_zero (S := S256x256) origin,
    View.ld_unit_zero (S := S1x256) origin, View.ld_unit_zero (S := S256x128) origin, View.ld_unit_zero (S := S1x128) origin]
  funext j
  obtain ⟨p, q, rfl⟩ : ∃ (p : Fin 4000) (q : Fin 128), j = ix2 p q := ⟨j 0, j 1, eq_ix2 j⟩
  have ht := point_lt t
  obtain ⟨e, he⟩ : ∃ e : Fin 500000, e.val = t.val * 4000 + p.val := ⟨⟨t.val * 4000 + p.val, by have := p.isLt; omega⟩, rfl⟩
  have hi : ((cfg0.win 7).blk t).view.emb (ix2 p q) = (ix2 e q : S500000x128.Idx) := funext fun a => Fin.ext (by
    obtain ⟨-, -, -, -, -, -, -, -, -, -, -, -, -, -, h0, h1⟩ := block_indices t
    match a with
    | ⟨0, _⟩ => show win0_7.index t (0 : Fin 2) * 4000 + 1 * p.val = e.val; rw [h0, he]; omega
    | ⟨1, _⟩ => show win0_7.index t (1 : Fin 2) * 128 + 1 * q.val = q.val; rw [h1]; omega)
  show k0_pay1 (F := Ideal) (iblk m c 0 t) (iblk m c 1 t) (iblk m c 2 t) (iblk m c 3 t) (iblk m c 4 t) (iblk m c 5 t) (iblk m c 6 t) (ix2 p q)
    = result m c (((cfg0.win 7).blk t).view.emb (ix2 p q))
  rw [hi]
  refine (stored_apply (iblk m c 0 t) (iblk m c 1 t) (iblk m c 2 t) (iblk m c 3 t) (iblk m c 4 t) (iblk m c 5 t) (iblk m c 6 t) p q).trans ?_
  simp only [src_block m c t p e he, dst_block m c t p e he, w1a_block m c t, w1b_block m c t, b1_block m c t, w2_block m c t,
    b2_block m c t]
  rfl

/-- An index of the result array is in point `t`'s block iff each coordinate is in the block's range on its axis. -/
theorem mem_block (t : Fin cfg0.N) (i : S500000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v28).slice (win0_7.rect t)).set ↔ _
  rw [View.set_slice_whole, Rect.mem_set_unit]
  exact Iff.rfl

/-- The result array after the run is the edge network. -/
theorem final (c : Dev nD) : (dats m 0 c).arrAt 7 cfg0.N = result m c :=
  (dats m 0 c).arrAt_eq_of_cover 7 (result m c) (fun t _ => flushed_eq m c t) fun i => by
    have hi0 : (i 0).val < 500000 := (i 0).isLt
    have hi1 : (i 1).val < 128 := (i 1).isLt
    obtain ⟨t, ht⟩ : ∃ t : Fin cfg0.N, t.val = (i 0).val / 4000 :=
      ⟨⟨(i 0).val / 4000, lt_of_lt_of_eq (by omega : (i 0).val / 4000 < 125) N_0.symm⟩, rfl⟩
    refine ⟨t, flush0_7 t, ?_⟩
    rw [mem_block]
    obtain ⟨-, -, -, -, -, -, -, -, -, -, -, -, -, -, h0, h1⟩ := block_indices t
    intro a
    match a with
    | ⟨0, _⟩ =>
      show win0_7.index t (0 : Fin 2) * 4000 ≤ (i 0).val ∧ (i 0).val < win0_7.index t (0 : Fin 2) * 4000 + 4000
      rw [h0, ht]; omega
    | ⟨1, _⟩ =>
      show win0_7.index t (1 : Fin 2) * 128 ≤ (i 1).val ∧ (i 1).val < win0_7.index t (1 : Fin 2) * 128 + 128
      rw [h1]; omega

/-- The kernel's run with its result array named: the edge network, the arguments unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.KernelValue

end
-- ==== Proof.RefValue.lean ====
/-
  The reference's result, entry by entry, is the edge network `G` of its two gathered arrays.

  The reference joins each edge's source row and destination row into one row of 512 numbers and multiplies by the
  transposed `W1`: unit `k` of edge `e` is `∑ c : Fin 512, pair (e, c) · W1 (k, c)`. Position `c` below 256 of the joined
  row is the source row's entry `c`, position `256 + l` the destination row's entry `l`; so the sum over 512 positions
  is the sum over the source row against the first half of row `k` of `W1` plus the sum over the destination row against
  its second half (`Cert.EdgeMlp.sum_halves`), which is how `G` spells the unit. The bias, the rectification against the
  zero pattern and the second layer are `G`'s, operation for operation.
-/
import proofs.«145748_j81484119539941_1_alg».proof.Proof.Gen.ReferenceIdeal.Read
import proofs.«145748_j81484119539941_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.EdgeMlp

/-- The joined row at a position below 256 is the first array's row there. -/
theorem pair_fst (a b : FVec Ideal S500000x256 .f32) (h : Shape.Concatenates [S500000x256, S500000x256] S500000x512 1)
    (e : Fin 500000) (l : Fin 256) :
    concatenate S500000x512 1 [⟨S500000x256, a⟩, ⟨S500000x256, b⟩] h (ix2 e (Fin.castAdd 256 l)) = a (ix2 e l) :=
  concatenate_pair_apply_left 1 a b h (ix2 e (Fin.castAdd 256 l)) rfl (ix2 e l) (fun c => match c with
    | ⟨0, _⟩ => rfl
    | ⟨1, _⟩ => rfl)

/-- The joined row at position `256 + l` is the second array's row at `l`. -/
theorem pair_snd (a b : FVec Ideal S500000x256 .f32) (h : Shape.Concatenates [S500000x256, S500000x256] S500000x512 1)
    (e : Fin 500000) (l : Fin 256) :
    concatenate S500000x512 1 [⟨S500000x256, a⟩, ⟨S500000x256, b⟩] h (ix2 e (Fin.natAdd 256 l)) = b (ix2 e l) :=
  concatenate_pair_apply_right 1 a b h (ix2 e (Fin.natAdd 256 l)) rfl rfl (ix2 e l)
    (fun c hc => match c, hc with
      | ⟨0, _⟩, _ => rfl
      | ⟨1, _⟩, hc => (hc rfl).elim)
    (by show l.val + 256 = 256 + l.val; omega)

variable (x0 : (⟨S100000x256, .f32⟩ : BufTy).Contents (Elt Ideal)) (x1 : (⟨S2x500000, .i32⟩ : BufTy).Contents (Elt Ideal))
  (x2 : (⟨S256x512, .f32⟩ : BufTy).Contents (Elt Ideal)) (x3 : (⟨S256, .f32⟩ : BufTy).Contents (Elt Ideal))
  (x4 : (⟨S128x256, .f32⟩ : BufTy).Contents (Elt Ideal)) (x5 : (⟨S128, .f32⟩ : BufTy).Contents (Elt Ideal))

/-- The left factor of unit `k`'s term at a position below 256: the gathered source row. -/
theorem joined_fst (e : Fin 500000) (k l : Fin 256) :
    val_main_v18 (F := Ideal) x0 x1 (lidx_main_v20 (ix2 e k) (Fin.castAdd 256 l)) = val_main_v8 (F := Ideal) x0 x1 (ix2 e l) := by
  have hj : lidx_main_v20 (ix2 e k) (Fin.castAdd 256 l) = ix2 e (Fin.castAdd 256 l) :=
    funext fun a => Fin.ext (by match a with | ⟨0, _⟩ => rfl | ⟨1, _⟩ => rfl)
  rw [hj]
  unfold val_main_v18
  exact pair_fst _ _ _ e l

/-- The left factor of unit `k`'s term at position `256 + l`: the gathered destination row. -/
theorem joined_snd (e : Fin 500000) (k l : Fin 256) :
    val_main_v18 (F := Ideal) x0 x1 (lidx_main_v20 (ix2 e k) (Fin.natAdd 256 l)) = val_main_v17 (F := Ideal) x0 x1 (ix2 e l) := by
  have hj : lidx_main_v20 (ix2 e k) (Fin.natAdd 256 l) = ix2 e (Fin.natAdd 256 l) :=
    funext fun a => Fin.ext (by match a with | ⟨0, _⟩ => rfl | ⟨1, _⟩ => rfl)
  rw [hj]
  unfold val_main_v18
  exact pair_snd _ _ _ e l

/-- The right factor of unit `k`'s term at position `c`: entry `(k, c)` of `W1`, through the transpose. -/
theorem w1_at (e : Fin 500000) (k : Fin 256) (c : Fin 512) :
    val_main_v19 (F := Ideal) x2 (ridx_main_v20 (ix2 e k) c) = x2 (ix2 k c) := by
  rw [val_main_v19_apply]
  exact congrArg x2 (funext fun a => Fin.ext (by match a with | ⟨0, _⟩ => rfl | ⟨1, _⟩ => rfl))

/-- The rectified first layer at `(e, k)` is hidden unit `k` of edge `e`. -/
theorem hidden_ref (e : Fin 500000) (k : Fin 256) :
    val_main_v24 (F := Ideal) x0 x1 x2 x3 (ix2 e k)
      = hidden (fun l => val_main_v8 (F := Ideal) x0 x1 (ix2 e l)) (fun l => val_main_v17 (F := Ideal) x0 x1 (ix2 e l))
          (fun k l => x2 (ix2 k l)) (fun k => x3 (ix1 k)) k := by
  rw [val_main_v24_apply, val_main_v23_apply, val_main_v20_apply, val_main_v22_apply, val_main_v21_apply,
    val_main_call0_v0_apply, val_main_call0_cst_apply, sum_halves]
  simp only [joined_fst, joined_snd, w1_at]
  have hb : idx_main_v21 (idx_main_v22 (ix2 e k)) = ix1 k :=
    funext fun a => Fin.ext (by match a with | ⟨0, _⟩ => rfl)
  rw [hb]
  rfl

/-- The reference's result array is the edge network of its two gathered arrays. -/
theorem result_eq :
    val_main_v29 (F := Ideal) x0 x1 x2 x3 x4 x5
      = G (val_main_v8 (F := Ideal) x0 x1) (val_main_v17 (F := Ideal) x0 x1) x2 x3 x4 x5 := by
  funext i
  obtain ⟨e, j, rfl⟩ : ∃ (e : Fin 500000) (j : Fin 128), i = ix2 e j := ⟨i 0, i 1, eq_ix2 i⟩
  rw [G_apply, val_main_v29_apply, val_main_v26_apply, val_main_v28_apply, val_main_v27_apply]
  have hb : idx_main_v27 (idx_main_v28 (ix2 e j)) = ix1 j :=
    funext fun a => Fin.ext (by match a with | ⟨0, _⟩ => rfl)
  rw [hb]
  unfold edgeOut
  refine congrArg (· + x5 (ix1 j)) (Finset.sum_congr rfl fun k _ => ?_)
  have hl : lidx_main_v26 (ix2 e j) k = ix2 e k :=
    funext fun a => Fin.ext (by match a with | ⟨0, _⟩ => rfl | ⟨1, _⟩ => rfl)
  have hr : idx_main_v25 (ridx_main_v26 (ix2 e j) k) = ix2 j k :=
    funext fun a => Fin.ext (by match a with | ⟨0, _⟩ => rfl | ⟨1, _⟩ => rfl)
  rw [val_main_v25_apply, hr, hl, hidden_ref]

end Cert.ReferenceIdeal.RefValue

end
-- ==== Proof.lean ====
/-
  An edge network over gathered node rows: the kernel against its jnp reference, over the extended reals.

  Both programs gather, for each of 500000 edges, the rows of the node table `z` at the edge's source and at its
  destination (the same host operations on the same arguments, so the two pairs of gathered arrays are one pair), and
  put each edge through a two-layer network: 256 rectified hidden units over the 512 numbers of the two rows, then 128
  affine output units.

  The reference joins the two rows and takes ONE product with the transposed `W1`, a sum over 512 positions. The kernel
  never joins them: the host cuts `W1` into its left and right halves and the body adds two products, each a sum over
  256 positions. A sum over 512 positions is the sum over the first 256 plus the sum over the last 256 — a law of
  every commutative monoid, so it needs no finiteness of the inputs, and the precondition is never opened. Everything
  else is the same operation on both sides: the bias rows, the maximum with the zero pattern (printed alike, never
  evaluated), the second product and its bias; a change of float format is the identity on the extended reals, and
  a matrix product into a zero accumulator is the host's product.

  The pieces: `Cert.EdgeMlp.G` is the network as one function of the arrays; `Cert.ReferenceIdeal.RefValue.result_eq`
  reads the reference's run as `G`; `Cert.KernelIdeal.KernelValue.run` reads the kernel's run as `G`, from the body's
  arithmetic at an entry, the host side's reading of the weight arrays, and the 125 blocks of 4000 rows that tile the
  result. Both frames of the kernel are its generated frame; the reference's frame is its run with the result
  dropped; the idealization rewrote nothing, so `preserves` is `True`.
-/
import proofs.«145748_j81484119539941_1_alg».proof.Defs
import proofs.«145748_j81484119539941_1_alg».proof.Proof.Gen.Kernel
import proofs.«145748_j81484119539941_1_alg».proof.Proof.Gen.Kernel.Skeleton
import proofs.«145748_j81484119539941_1_alg».proof.Proof.Gen.Kernel.Launch
import proofs.«145748_j81484119539941_1_alg».proof.Proof.Gen.Kernel.Points
import proofs.«145748_j81484119539941_1_alg».proof.Proof.Gen.Kernel.Frame
import proofs.«145748_j81484119539941_1_alg».proof.Proof.Gen.KernelIdeal
import proofs.«145748_j81484119539941_1_alg».proof.Proof.Gen.KernelIdeal.Skeleton
import proofs.«145748_j81484119539941_1_alg».proof.Proof.Gen.KernelIdeal.Launch
import proofs.«145748_j81484119539941_1_alg».proof.Proof.Gen.KernelIdeal.Points
import proofs.«145748_j81484119539941_1_alg».proof.Proof.Gen.KernelIdeal.Frame
import proofs.«145748_j81484119539941_1_alg».proof.Proof.Gen.ReferenceIdeal
import proofs.«145748_j81484119539941_1_alg».proof.Proof.Gen.Pre_finite_inputs
import proofs.«145748_j81484119539941_1_alg».proof.Proof.Gen.KernelIdeal.Value
import proofs.«145748_j81484119539941_1_alg».proof.Proof.Gen.ReferenceIdeal.Run
import proofs.«145748_j81484119539941_1_alg».proof.Proof.Gen.ReferenceIdeal.Read
import proofs.«145748_j81484119539941_1_alg».proof.Proof.KernelValue
import proofs.«145748_j81484119539941_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

section Gathers

open Cert.KernelIdeal Cert.KernelIdeal.HostSide

variable (m : (ℓ : Loc Cert.KernelIdeal.nD Cert.KernelIdeal.τ Cert.KernelIdeal.sig) → Buf (Elt Ideal) ℓ)

/-- The reference gathers its source rows by the kernel's host operations: the same rows. -/
theorem src_same (c : Dev Cert.KernelIdeal.nD) :
    Cert.ReferenceIdeal.Read.val_main_v8 (F := Ideal) (zArr m c) (eArr m c) = srcArr m c := rfl

/-- And its destination rows. -/
theorem dst_same (c : Dev Cert.KernelIdeal.nD) :
    Cert.ReferenceIdeal.Read.val_main_v17 (F := Ideal) (zArr m c) (eArr m c) = dstArr m c := rfl

end Gathers

/-- From memories that agree on the arguments both programs end with the edge network of the gathered rows. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  refine (Cert.ReferenceIdeal.Read.val_main_v29_eq _ _ _ _ _ _).trans ?_
  refine (Cert.ReferenceIdeal.RefValue.result_eq _ _ _ _ _ _).trans ?_
  show Cert.EdgeMlp.G _ _ _ _ _ _ = Cert.EdgeMlp.G _ _ _ _ _ _
  rw [src_same m c, dst_same m c]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
